-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x4096 : Shape := ⟨3, ![64, 256, 4096]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S64x256x4096 : S_.BroadcastsInDim S64x256x4096 (![] : Fin 0 → Fin S64x256x4096.rank)
  reducesTo_S64x256x4096_S_d0_1_2 : S64x256x4096.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x4096 .f32) (main_arg1 : FVec F S16x256 .f32) (main_arg2 : FVec F S16 .f32) (main_arg3 : FVec F S256x16 .f32) (main_arg4 : FVec F S256 .f32) : IVec S_ 1 :=
  let main_v0 : FVec F S64x256x4096 .f32 := Host.absf main_arg0
  let main_cst : FVec F S_ .f32 := constant S_ .f32 0x7F800000#32
  let main_v1 : FVec F S64x256x4096 .f32 := broadcastInDim S64x256x4096 ![] bcast_S_S64x256x4096 main_cst
  let main_v2 : IVec S64x256x4096 1 := cmpf .olt main_v0 main_v1
  let main_c : IVec S_ 1 := constantI S_ 1 1#1
  let main_v3 : IVec S_ 1 := (fun x v => Host.reduce IntOp.andi x v reducesTo_S64x256x4096_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S64x256x4096 : Shape := ⟨3, ![64, 256, 4096]⟩
abbrev S16x256 : Shape := ⟨2, ![16, 256]⟩
abbrev S16 : Shape := ⟨1, ![16]⟩
abbrev S256x16 : Shape := ⟨2, ![256, 16]⟩
abbrev S256 : Shape := ⟨1, ![256]⟩
abbrev S64x256 : Shape := ⟨2, ![64, 256]⟩
abbrev S8x256x1024 : Shape := ⟨3, ![8, 256, 1024]⟩
abbrev S8x256 : Shape := ⟨2, ![8, 256]⟩
abbrev S64x16 : Shape := ⟨2, ![64, 16]⟩
abbrev S1x16 : Shape := ⟨2, ![1, 16]⟩
abbrev S_ : Shape := ⟨0, ![]⟩
abbrev S1x256 : Shape := ⟨2, ![1, 256]⟩
abbrev S8x256x1 : Shape := ⟨3, ![8, 256, 1]⟩

abbrev nBuf : Space → Nat
  | .hbm => 26
  | .vmem => 10
  | .smem => 0
  | _ => 0

abbrev bufTy : (tb : Table) → Fin (tcTables nBuf tb) → BufTy
  | .hbm, ⟨0, _⟩ => ⟨S64x256x4096, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S64x256, .f32⟩
  | .hbm, ⟨6, _⟩ => ⟨S64x16, .f32⟩
  | .hbm, ⟨7, _⟩ => ⟨S1x16, .f32⟩
  | .hbm, ⟨8, _⟩ => ⟨S64x16, .f32⟩
  | .hbm, ⟨9, _⟩ => ⟨S64x16, .f32⟩
  | .hbm, ⟨10, _⟩ => ⟨S_, .f32⟩
  | .hbm, ⟨11, _⟩ => ⟨S64x16, .f32⟩
  | .hbm, ⟨12, _⟩ => ⟨S64x16, .f32⟩
  | .hbm, ⟨13, _⟩ => ⟨S64x256, .f32⟩
  | .hbm, ⟨14, _⟩ => ⟨S1x256, .f32⟩
  | .hbm, ⟨15, _⟩ => ⟨S64x256, .f32⟩
  | .hbm, ⟨16, _⟩ => ⟨S64x256, .f32⟩
  | .hbm, ⟨17, _⟩ => ⟨S64x256, .f32⟩
  | .hbm, ⟨18, _⟩ => ⟨S64x256, .f32⟩
  | .hbm, ⟨19, _⟩ => ⟨S_, .f32⟩
  | .hbm, ⟨20, _⟩ => ⟨S64x256, .f32⟩
  | .hbm, ⟨21, _⟩ => ⟨S64x256, .f32⟩
  | .hbm, ⟨22, _⟩ => ⟨S_, .f32⟩
  | .hbm, ⟨23, _⟩ => ⟨S64x256, .f32⟩
  | .hbm, ⟨24, _⟩ => ⟨S64x256, .f32⟩
  | .hbm, ⟨25, _⟩ => ⟨S64x256x4096, .f32⟩
  | .local _ .vmem, ⟨0, _⟩ => ⟨S8x256x1024, .f32⟩
  | .local _ .vmem, ⟨1, _⟩ => ⟨S8x256x1024, .f32⟩
  | .local _ .vmem, ⟨2, _⟩ => ⟨S8x256, .f32⟩
  | .local _ .vmem, ⟨3, _⟩ => ⟨S8x256, .f32⟩
  | .local _ .vmem, ⟨4, _⟩ => ⟨S8x256x1024, .f32⟩
  | .local _ .vmem, ⟨5, _⟩ => ⟨S8x256x1024, .f32⟩
  | .local _ .vmem, ⟨6, _⟩ => ⟨S8x256, .f32⟩
  | .local _ .vmem, ⟨7, _⟩ => ⟨S8x256, .f32⟩
  | .local _ .vmem, ⟨8, _⟩ => ⟨S8x256x1024, .f32⟩
  | .local _ .vmem, ⟨9, _⟩ => ⟨S8x256x1024, .f32⟩
  | _, _ => ⟨S64x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x1024_S8x256x1024_0_0_0 : ∀ a, (![0, 0, 0] : Fin 3 → Nat) a + S8x256x1024.size a ≤ S8x256x1024.size a
  h_S8x256x1024 : 0 < S8x256x1024.numel
  reduces_S8x256x1024_S8x256 : S8x256x1024.Reduces [2] S8x256
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  shapeCasts_S8x256_S8x256x1 : S8x256.ShapeCasts S8x256x1
  broadcasts_S8x256x1_S8x256x1024 : S8x256x1.Broadcasts S8x256x1024
  dot_S64x256_S16x256_S64x16_1_1_0_0_n_n_wf : DotDims.WF S64x256 S16x256 S64x16 [1] [1] [0] [0] [] []
  dot_S64x16_S256x16_S64x256_1_1_0_0_n_n_wf : DotDims.WF S64x16 S256x16 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x4096.size a
  hwx0_0 : ∀ i : grid0.Coords, EltTy.bits .f32 = 32 ∨ (Rect.block (s := S64x256x4096) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S64x256x4096.size a
  hwx1_0 : ∀ i : grid1.Coords, EltTy.bits .f32 = 32 ∨ (Rect.block (s := S64x256x4096) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S64x256.size a
  hwx1_1 : ∀ i : grid1.Coords, EltTy.bits .f32 = 32 ∨ (Rect.block (s := S64x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x1024.size a ≤ S64x256x4096.size a
  hwx1_2 : ∀ i : grid1.Coords, EltTy.bits .f32 = 32 ∨ (Rect.block (s := S64x256x4096) S8x256x1024.size (cc1_transform_2 i) (hinb1_2 i)).WholeWords (EltTy.packing .f32)

variable [Facts₀]

def dot_S64x256_S16x256_S64x16_1_1_0_0_n_n : DotDims S64x256 S16x256 S64x16 where
  lhsContracting := [1]
  rhsContracting := [1]
  lhsNonContracting := [0]
  rhsNonContracting := [0]
  lhsBatch := []
  rhsBatch := []
  wf := dot_S64x256_S16x256_S64x16_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x256x4096 : Shape := ⟨3, ![64, 256, 4096]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S64x256 : Shape := ⟨2, ![64, 256]⟩
abbrev S64x16 : Shape := ⟨2, ![64, 16]⟩
abbrev S1x16 : Shape := ⟨2, ![1, 16]⟩
abbrev S1x256 : Shape := ⟨2, ![1, 256]⟩
abbrev S64x256x1 : Shape := ⟨3, ![64, 256, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x256x4096, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x16, .f32⟩
  | .hbm, ⟨11, _⟩ => ⟨S1x16, .f32⟩
  | .hbm, ⟨12, _⟩ => ⟨S64x16, .f32⟩
  | .hbm, ⟨13, _⟩ => ⟨S64x16, .f32⟩
  | .hbm, ⟨14, _⟩ => ⟨S_, .f32⟩
  | .hbm, ⟨15, _⟩ => ⟨S64x16, .f32⟩
  | .hbm, ⟨16, _⟩ => ⟨S64x16, .f32⟩
  | .hbm, ⟨17, _⟩ => ⟨S64x256, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S_, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S64x256x1, .f32⟩
  | .hbm, ⟨30, _⟩ => ⟨S64x256x4096, .f32⟩
  | .hbm, ⟨31, _⟩ => ⟨S64x256x4096, .f32⟩
  | _, _ => ⟨S64x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S64x256x4096_S64x256_d2 : S64x256x4096.ReducesTo [2] S64x256
  h_S_ : 0 < S_.numel
  bcast_S_S64x256 : S_.BroadcastsInDim S64x256 (![] : Fin 0 → Fin S64x256.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1_0_1 : S64x256.BroadcastsInDim S64x256x1 (![0, 1] : Fin 2 → Fin S64x256x1.rank)
  bcast_S64x256x1_S64x256x4096_0_1_2 : S64x256x1.BroadcastsInDim S64x256x4096 (![0, 1, 2] : Fin 3 → Fin S64x256x4096.rank)
  dot_S64x256_S16x256_S64x16_1_1_0_0_n_n_wf : DotDims.WF S64x256 S16x256 S64x16 [1] [1] [0] [0] [] []
  dot_S64x16_S256x16_S64x256_1_1_0_0_n_n_wf : DotDims.WF S64x16 S256x16 S64x256 [1] [1] [0] [0] [] []

variable [Facts₀]

def dot_S64x256_S16x256_S64x16_1_1_0_0_n_n : DotDims S64x256 S16x256 S64x16 where
  lhsContracting := [1]
  rhsContracting := [1]
  lhsNonContracting := [0]
  rhsNonContracting := [0]
  lhsBatch := []
  rhsBatch := []
  wf := dot_S64x256_S16x256_S64x16_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

class Facts : Prop extends Facts₀ where

variable [Facts]
-- ==== Proof.Mean.lean ====
import proofs.«149825_j5970004542268_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Mean

open Cert.KernelIdeal Cert.KernelIdeal.Gen ValueIdx

open scoped BigOperators

/-! ## What each control case leaves in the output's staging buffer

At the first length block of a batch block the body stores zeros and then adds the block's row sums; at a later one it
adds the block's row sums to what the buffer holds; at the last one it also multiplies the total by the constant. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First length block: zeros, then the block's row sums added. -/
theorem out_first (c : Dev nD) (i : grid0.Coords) (a2 : Memref sig .tc .vmem S8x256x1024 .f32) (h2 : a2.IsWhole)
    (a3 : Memref sig .tc .vmem S8x256 .f32) (h3 : a3.IsWhole) (hc0 : cond0_0 i) (hc1 : ¬cond0_1 i)
    (x : Vec F S8x256x1024 .f32) :
    out0_A_1 c i a2 h2 a3 h3 hc0 hc1 x = k0_pay2 (k0_pay1 (F := F)) x := by
  unfold out0_A_1
  rw [View.read_writes_eq_canon _ _ _ (cover0_A_1 c i a2 h2 a3 h3 hc0 hc1 x)]
  unfold kernelRun0_A
  dsimp only
  sl_unfold_words
  rw [View.canon_cons_unit_zero (S := S8x256) hz2, View.readCov_unit_zero (S := S8x256) _ hz2]
  simp only [View.readAt_eq_ld, h2.read_unread, View.ld_unit_zero (S := S8x256x1024) hz3]

/-- A middle length block: the block's row sums added to the running total `xo`. -/
theorem out_middle (c : Dev nD) (i : grid0.Coords) (a2 : Memref sig .tc .vmem S8x256x1024 .f32) (h2 : a2.IsWhole)
    (a3 : Memref sig .tc .vmem S8x256 .f32) (h3 : a3.IsWhole) (hc0 : ¬cond0_0 i) (hc1 : ¬cond0_1 i)
    (x : Vec F S8x256x1024 .f32) (xo : Vec F S8x256 .f32) :
    out0_B_1 c i a2 h2 a3 h3 hc0 hc1 x xo = k0_pay2 xo x := by
  unfold out0_B_1
  rw [View.read_writes_eq_canon _ _ _ (cover0_B_1 c i a2 h2 a3 h3 hc0 hc1 x xo)]
  unfold kernelRun0_B
  dsimp only
  sl_unfold_words
  rw [View.canon_unit_zero hz2]
  simp only [View.readAt_eq_ld, h2.read_unread, h3.read_unread, View.ld_unit_zero (S := S8x256) hz2,
    View.ld_unit_zero (S := S8x256x1024) hz3]

/-- The last length block: the row sums added, then the total times the constant. -/
theorem out_last (c : Dev nD) (i : grid0.Coords) (a2 : Memref sig .tc .vmem S8x256x1024 .f32) (h2 : a2.IsWhole)
    (a3 : Memref sig .tc .vmem S8x256 .f32) (h3 : a3.IsWhole) (hc0 : ¬cond0_0 i) (hc1 : cond0_1 i)
    (x : Vec F S8x256x1024 .f32) (xo : Vec F S8x256 .f32) :
    out0_C_1 c i a2 h2 a3 h3 hc0 hc1 x xo = k0_pay3 (k0_pay2 xo x) := by
  unfold out0_C_1
  rw [View.read_writes_eq_canon _ _ _ (cover0_C_1 c i a2 h2 a3 h3 hc0 hc1 x xo)]
  unfold kernelRun0_C
  dsimp only
  sl_unfold_words
  rw [View.canon_cons_unit_zero (S := S8x256) hz2]
  simp only [View.readCov_unit_zero (S := S8x256) _ hz2, View.readAt_eq_ld, h2.read_unread, h3.read_unread,
    View.ld_unit_zero (S := S8x256) hz2, View.ld_unit_zero (S := S8x256x1024) hz3]

end Pieces

variable (V : (c : Dev nD) → (b : Ref sig .tc) → Buf (Elt Ideal) ((c : Thread nD τ).loc b))

/-- The data array as the region finds it, and its block at a grid point, at their literal types. -/
abbrev xarr (c : Dev nD) : S64x256x4096.Idx → EReal := V c main_arg0
abbrev xblk (c : Dev nD) (t : Fin cfg0.N) : Vec Ideal S8x256x1024 .f32 := iblk0 V c 0 t

theorem lt_N {k : ℕ} (hk : k < 32) : k < cfg0.N := lt_of_lt_of_eq hk N_0.symm

/-- Four consecutive grid points share a batch block; after the fourth the staging buffer holds the four blocks' row sums
    added in turn to zeros, times the constant. -/
theorem outs_run (c : Dev nD) (n : ℕ) (h0 : n % 4 = 0) (h : n + 3 < 32) :
    outsAt0 V c (n + 3) (lt_N h)
      = k0_pay3 (k0_pay2 (k0_pay2 (k0_pay2 (k0_pay2 (k0_pay1 (F := Ideal)) (xblk V c ⟨n, lt_N (by omega)⟩))
          (xblk V c ⟨n + 1, lt_N (by omega)⟩)) (xblk V c ⟨n + 2, lt_N (by omega)⟩)) (xblk V c ⟨n + 3, lt_N h⟩)) := by
  have e3 : outsAt0 V c (n + 3) (lt_N h) = _ :=
    outsAt0_C V c ⟨n + 3, lt_N h⟩ (by dsimp only; omega) (by dsimp only; omega)
  have e2 : outsAt0 V c (n + 2) (lt_N (by omega)) = _ :=
    outsAt0_B V c ⟨n + 2, lt_N (by omega)⟩ (by dsimp only; omega) (by dsimp only; omega)
  have e1 : outsAt0 V c (n + 1) (lt_N (by omega)) = _ :=
    outsAt0_B V c ⟨n + 1, lt_N (by omega)⟩ (by dsimp only; omega) (by dsimp only; omega)
  have e0 : outsAt0 V c n (lt_N (by omega)) = _ :=
    outsAt0_A V c ⟨n, lt_N (by omega)⟩ (by dsimp only; omega) (by dsimp only; omega)
  rw [e3, out_last]
  show k0_pay3 (k0_pay2 (outsAt0 V c (n + 2) (lt_N (by omega))) (xblk V c ⟨n + 3, lt_N h⟩)) = _
  rw [e2, out_middle]
  show k0_pay3 (k0_pay2 (k0_pay2 (outsAt0 V c (n + 1) (lt_N (by omega))) (xblk V c ⟨n + 2, lt_N (by omega)⟩))
    (xblk V c ⟨n + 3, lt_N h⟩)) = _
  rw [e1, out_middle]
  show k0_pay3 (k0_pay2 (k0_pay2 (k0_pay2 (outsAt0 V c n (lt_N (by omega))) (xblk V c ⟨n + 1, lt_N (by omega)⟩))
    (xblk V c ⟨n + 2, lt_N (by omega)⟩)) (xblk V c ⟨n + 3, lt_N h⟩)) = _
  rw [e0, out_first]

/-! ## The staged total read at coordinates -/

/-- Putting the length coordinate back into a (row, channel) index of the reduced block. -/
theorem lift_eq (p : Fin 8) (q : Fin 256) (l : Fin 1024) :
    reduces_S8x256x1024_S8x256.lift (ix2 p q) l = ix3 p q l := by
  funext a
  match a with
  | ⟨0, _⟩ => rfl
  | ⟨1, _⟩ => rfl
  | ⟨2, _⟩ => rfl

/-- The reset stores zeros. -/
theorem pay1_apply (p : Fin 8) (q : Fin 256) :
    k0_pay1 (F := Ideal) (ix2 p q) = Ideal.ofBits .f32 0x00000000#32 := rfl

/-- One accumulation step adds the data block's sum along the length axis. -/
theorem pay2_apply (acc : Vec Ideal S8x256 .f32) (x : Vec Ideal S8x256x1024 .f32) (p : Fin 8) (q : Fin 256) :
    k0_pay2 acc x (ix2 p q) = acc (ix2 p q) + ∑ l : Fin 1024, x (ix3 p q l) := by
  unfold k0_pay2
  rw [addf_apply, shapeCast_self]
  refine congrArg (acc (ix2 p q) + ·) ?_
  refine (Ideal.multiReduction_add_single x _ reduces_S8x256x1024_S8x256 _ _ (ix2 p q)).trans ?_
  exact Finset.sum_congr rfl fun l _ => congrArg x (lift_eq p q l)

/-- The closing step multiplies by the constant. -/
theorem pay3_apply (v : Vec Ideal S8x256 .f32) (p : Fin 8) (q : Fin 256) :
    k0_pay3 v (ix2 p q) = v (ix2 p q) * Ideal.ofBits .f32 0x39800000#32 := by
  unfold k0_pay3
  rw [mulf_apply, shapeCast_self]
  rfl

/-- Four steps from zeros, then the constant, at one (row, channel) of the block. -/
theorem chain_apply (b0 b1 b2 b3 : Vec Ideal S8x256x1024 .f32) (p : Fin 8) (q : Fin 256) :
    k0_pay3 (k0_pay2 (k0_pay2 (k0_pay2 (k0_pay2 (k0_pay1 (F := Ideal)) b0) b1) b2) b3) (ix2 p q)
      = ((((Ideal.ofBits .f32 0x00000000#32 + ∑ l : Fin 1024, b0 (ix3 p q l)) + ∑ l : Fin 1024, b1 (ix3 p q l))
          + ∑ l : Fin 1024, b2 (ix3 p q l)) + ∑ l : Fin 1024, b3 (ix3 p q l)) * Ideal.ofBits .f32 0x39800000#32 := by
  rw [pay3_apply, pay2_apply, pay2_apply, pay2_apply, pay2_apply, pay1_apply]

/-- The same at any index of the block. -/
theorem chain_entry (b0 b1 b2 b3 : Vec Ideal S8x256x1024 .f32) (y : S8x256.Idx) :
    k0_pay3 (k0_pay2 (k0_pay2 (k0_pay2 (k0_pay2 (k0_pay1 (F := Ideal)) b0) b1) b2) b3) y
      = ((((Ideal.ofBits .f32 0x00000000#32 + ∑ l : Fin 1024, b0 (ix3 (y 0) (y 1) l)) + ∑ l : Fin 1024, b1 (ix3 (y 0) (y 1) l))
          + ∑ l : Fin 1024, b2 (ix3 (y 0) (y 1) l)) + ∑ l : Fin 1024, b3 (ix3 (y 0) (y 1) l)) * Ideal.ofBits .f32 0x39800000#32 := by
  obtain ⟨p, q, rfl⟩ : ∃ (p : Fin 8) (q : Fin 256), y = ix2 p q := ⟨y 0, y 1, eq_ix2 y⟩
  exact chain_apply b0 b1 b2 b3 p q

/-! ## The pooled array -/

/-- The column of `x` at batch row and channel `i`, listed by position along the length axis (zero past its end). -/
def col (x : S64x256x4096.Idx → EReal) (i : S64x256.Idx) : ℕ → EReal :=
  fun k => if h : k < 4096 then x (ix3 (n0 := 64) (n1 := 256) (n2 := 4096) (i 0) (i 1) ⟨k, h⟩) else 0

/-- What the first kernel leaves: at each batch row and channel the column's four runs of 1024 terms added in turn to
    zero, then the total times the constant. -/
def pooled (x : S64x256x4096.Idx → EReal) : S64x256.Idx → EReal := fun i =>
  ((((Ideal.ofBits .f32 0x00000000#32 + ∑ r : Fin 1024, col x i (1024 * 0 + r.val)) + ∑ r : Fin 1024, col x i (1024 * 1 + r.val))
      + ∑ r : Fin 1024, col x i (1024 * 2 + r.val)) + ∑ r : Fin 1024, col x i (1024 * 3 + r.val))
    * Ideal.ofBits .f32 0x39800000#32

/-- Where the windows' blocks sit at grid point `t`: batch block `t / 4`, all channels, length block `t % 4`; the
    output block follows the batch block alone. -/
theorem idx_facts : ∀ t : Fin cfg0.N, win0_0.index t (0 : Fin 3) = t.val / 4 ∧ win0_0.index t (1 : Fin 3) = 0
    ∧ win0_0.index t (2 : Fin 3) = t.val % 4 ∧ win0_1.index t (0 : Fin 2) = t.val / 4 ∧ win0_1.index t (1 : Fin 2) = 0 :=
  (by decide +kernel : ∀ t : Fin grid0.N, _)

/-- An entry of the data block at point `s` is the entry of the column, of the row the output block of a point `t` of
    the same batch block puts it in, at position `1024 (s % 4) + l`. -/
theorem block_read (c : Dev nD) (s t : Fin cfg0.N) (hst : s.val / 4 = t.val / 4) (j : ℕ) (hj : s.val % 4 = j)
    (y : S8x256.Idx) (l : Fin 1024) :
    xblk V c s (ix3 (y 0) (y 1) l) = col (xarr V c) (((cfg0.win 1).blk t).view.emb y) (1024 * j + l.val) := by
  obtain ⟨e0, e1, e2, -, -⟩ := idx_facts s
  obtain ⟨-, -, -, f3, f4⟩ := idx_facts t
  have hl : l.val < 1024 := l.isLt
  have hs : s.val < 32 := lt_of_lt_of_eq s.isLt N_0
  unfold col
  rw [dif_pos (by omega)]
  show xarr V c (((cfg0.win 0).blk s).view.emb (ix3 (y 0) (y 1) l)) = _
  refine congrArg (xarr V c) ?_
  funext a; apply Fin.ext
  match a with
  | ⟨0, _⟩ => show win0_0.index s (0 : Fin 3) * 8 + 1 * (y 0).val = win0_1.index t (0 : Fin 2) * 8 + 1 * (y 0).val; omega
  | ⟨1, _⟩ => show win0_0.index s (1 : Fin 3) * 256 + 1 * (y 1).val = win0_1.index t (1 : Fin 2) * 256 + 1 * (y 1).val; omega
  | ⟨2, _⟩ => show win0_0.index s (2 : Fin 3) * 1024 + 1 * l.val = 1024 * j + l.val; omega

/-- What a writing point (the last length block of its batch block) writes back is its block of the pooled array. -/
theorem flushed_eq (c : Dev nD) (t : Fin cfg0.N) (hf : (cfg0.win 1).flush t = true) :
    (dat0 V c).flushed 1 t = ((cfg0.win 1).blk t).view.read (Elt Ideal) (pooled (xarr V c)) := by
  have h3 : t.val % 4 = 3 := (flush0_1 t).mp hf
  show (cfg0.win 1).cut (grid0.coords t) ((dat0 V c).after 1 t) = _
  rw [after0_1]
  obtain ⟨tv, ht⟩ := t
  have hN : tv < 32 := lt_of_lt_of_eq ht N_0
  obtain ⟨n, rfl⟩ : ∃ n, tv = n + 3 := ⟨tv - 3, by dsimp only at h3; omega⟩
  dsimp only at h3
  rw [show outsAt0 V c (⟨n + 3, ht⟩ : Fin cfg0.N).val (⟨n + 3, ht⟩ : Fin cfg0.N).isLt = _
    from outs_run V c n (by omega) hN]
  funext y
  show k0_pay3 (k0_pay2 (k0_pay2 (k0_pay2 (k0_pay2 (k0_pay1 (F := Ideal)) (xblk V c ⟨n, lt_N (by omega)⟩))
      (xblk V c ⟨n + 1, lt_N (by omega)⟩)) (xblk V c ⟨n + 2, lt_N (by omega)⟩)) (xblk V c ⟨n + 3, lt_N hN⟩)) y
    = pooled (xarr V c) (((cfg0.win 1).blk ⟨n + 3, ht⟩).view.emb y)
  refine (chain_entry _ _ _ _ y).trans ?_
  have r0 := fun l => block_read V c ⟨n, lt_N (by omega)⟩ ⟨n + 3, ht⟩ (by dsimp only; omega) 0 (by dsimp only; omega) y l
  have r1 := fun l => block_read V c ⟨n + 1, lt_N (by omega)⟩ ⟨n + 3, ht⟩ (by dsimp only; omega) 1 (by dsimp only; omega) y l
  have r2 := fun l => block_read V c ⟨n + 2, lt_N (by omega)⟩ ⟨n + 3, ht⟩ (by dsimp only; omega) 2 (by dsimp only; omega) y l
  have r3 := fun l => block_read V c ⟨n + 3, lt_N hN⟩ ⟨n + 3, ht⟩ rfl 3 (by dsimp only; omega) y l
  exact congrArg (· * Ideal.ofBits .f32 0x39800000#32)
    (congrArg₂ (· + ·) (congrArg₂ (· + ·) (congrArg₂ (· + ·) (congrArg (Ideal.ofBits .f32 0x00000000#32 + ·)
      (Finset.sum_congr rfl fun l _ => r0 l)) (Finset.sum_congr rfl fun l _ => r1 l))
      (Finset.sum_congr rfl fun l _ => r2 l)) (Finset.sum_congr rfl fun l _ => r3 l))

/-- An index is in point `t`'s output block iff each coordinate is in the block's range on its axis. -/
theorem mem_blk (t : Fin cfg0.N) (i : S64x256.Idx) :
    i ∈ ((cfg0.win 1).blk t).view.set ↔ ∀ a : Fin 2, win0_1.index t a * S8x256.size a ≤ (i a).val
      ∧ (i a).val < win0_1.index t a * S8x256.size a + S8x256.size a := by
  show i ∈ ((View.whole main_v0).slice (win0_1.rect t)).set ↔ _
  rw [View.set_slice_whole, Rect.mem_set_unit]
  exact Iff.rfl

/-- The written blocks tile the array: entry (b, q) lies in the block the point `4 (b / 8) + 3` writes. -/
theorem cover (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  let t : Fin cfg0.N := ⟨4 * ((i 0).val / 8) + 3, lt_N (by omega)⟩
  obtain ⟨-, -, -, f3, f4⟩ := idx_facts t
  have ht : t.val = 4 * ((i 0).val / 8) + 3 := rfl
  refine ⟨t, (flush0_1 t).mpr (by omega), ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 256 ≤ (i 1).val ∧ (i 1).val < win0_1.index t (1 : Fin 2) * 256 + 256; omega

/-- After the first kernel its result array is the pooled array of the data as the region finds it. -/
theorem final (c : Dev nD) : (dat0 V c).arrAt 1 cfg0.N = pooled (xarr V c) :=
  (dat0 V c).arrAt_eq_of_cover 1 (pooled (xarr V c)) (flushed_eq V c) cover

end Cert.KernelIdeal.Mean

end
-- ==== Proof.Scale.lean ====
import proofs.«149825_j5970004542268_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Scale

open Cert.KernelIdeal Cert.KernelIdeal.Gen ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The data array and the gate array as the region finds them, at their literal types. -/
abbrev xarr (c : Dev nD) : S64x256x4096.Idx → EReal := V c main_arg0
abbrev garr (c : Dev nD) : S64x256.Idx → EReal := V c main_v15

/-- Every entry of `x` times the gate of its batch row and channel: the gate does not depend on the position along
    the last axis. -/
def scaled (x : S64x256x4096.Idx → EReal) (g : S64x256.Idx → EReal) : S64x256x4096.Idx → EReal :=
  fun i => x i * g (ix2 (i 0) (i 1))

/-- The body's product at coordinates: the gate block, given a unit last axis and repeated along it, meets the data
    block entry by entry. -/
theorem pay_apply (g : Vec Ideal S8x256 .f32) (x : Vec Ideal S8x256x1024 .f32) (p : Fin 8) (q : Fin 256) (l : Fin 1024) :
    k1_pay1 g x (ix3 p q l) = x (ix3 p q l) * g (ix2 p q) := by
  unfold k1_pay1
  rw [mulf_apply, shapeCast_self]
  refine congrArg (x (ix3 p q l) * ·) ?_
  refine (broadcastTo_apply _ _ (ix3 p q l) (ix3 p q (0 : Fin 1)) (fun a => ?_)).trans ?_
  · match a with
    | ⟨0, _⟩ => rfl
    | ⟨1, _⟩ => rfl
    | ⟨2, _⟩ => rfl
  · refine shapeCast_apply g _ (ix3 p q (0 : Fin 1)) (ix2 p q) ?_
    rw [Shape.rowMajor_val_two, Shape.rowMajor_val_three]
    show p.val * 256 + q.val = (p.val * 256 + q.val) * 1 + 0
    omega

/-- The same at any index of the block. -/
theorem pay_entry (g : Vec Ideal S8x256 .f32) (x : Vec Ideal S8x256x1024 .f32) (j : S8x256x1024.Idx) :
    k1_pay1 g x j = x j * g (ix2 (j 0) (j 1)) := by
  obtain ⟨p, q, l, rfl⟩ : ∃ (p : Fin 8) (q : Fin 256) (l : Fin 1024), j = ix3 p q l := ⟨j 0, j 1, j 2, eq_ix3 j⟩
  exact pay_apply g x p q l

/-- Where each window's block sits at grid point `t`: batch block `t / 4`, all channels, length block `t % 4`; the gate's
    block follows the batch block alone. -/
theorem idx_facts : ∀ t : Fin cfg1.N, win1_0.index t (0 : Fin 3) = t.val / 4 ∧ win1_0.index t (1 : Fin 3) = 0
    ∧ win1_0.index t (2 : Fin 3) = t.val % 4 ∧ win1_1.index t (0 : Fin 2) = t.val / 4 ∧ win1_1.index t (1 : Fin 2) = 0
    ∧ win1_2.index t (0 : Fin 3) = t.val / 4 ∧ win1_2.index t (1 : Fin 3) = 0 ∧ win1_2.index t (2 : Fin 3) = t.val % 4 :=
  (by decide +kernel : ∀ t : Fin grid1.N, _)

/-- What point `t` writes back is block `t` of the scaled array, over the arrays as the region finds them. -/
theorem flushed_eq (c : Dev nD) (t : Fin cfg1.N) :
    (dat1 V c).flushed 2 t = ((cfg1.win 2).blk t).view.read (Elt Ideal) (scaled (xarr V c) (garr V c)) := by
  show (cfg1.win 2).cut (grid1.coords t) ((dat1 V c).after 2 t) = _
  rw [after1_2]
  unfold out1_2
  rw [View.canon_unit_zero hz3]
  simp only [View.ld_unit_zero (S := S8x256x1024) hz3, View.ld_unit_zero (S := S8x256) hz2]
  obtain ⟨e0, e1, e2, e3, e4, e5, e6, e7⟩ := idx_facts t
  funext j
  show k1_pay1 (iblk1 V c 1 t) (iblk1 V c 0 t) j = scaled (xarr V c) (garr V c) (((cfg1.win 2).blk t).view.emb j)
  refine (pay_entry _ _ j).trans ?_
  show xarr V c (((cfg1.win 0).blk t).view.emb j) * garr V c (((cfg1.win 1).blk t).view.emb (ix2 (j 0) (j 1)))
    = xarr V c (((cfg1.win 2).blk t).view.emb j)
      * garr V c (ix2 ((((cfg1.win 2).blk t).view.emb j) 0) ((((cfg1.win 2).blk t).view.emb j) 1))
  have h0 : ((cfg1.win 0).blk t).view.emb j = ((cfg1.win 2).blk t).view.emb j := by
    funext a; apply Fin.ext
    match a with
    | ⟨0, _⟩ => show win1_0.index t (0 : Fin 3) * 8 + 1 * (j 0).val = win1_2.index t (0 : Fin 3) * 8 + 1 * (j 0).val; omega
    | ⟨1, _⟩ => show win1_0.index t (1 : Fin 3) * 256 + 1 * (j 1).val = win1_2.index t (1 : Fin 3) * 256 + 1 * (j 1).val; omega
    | ⟨2, _⟩ => show win1_0.index t (2 : Fin 3) * 1024 + 1 * (j 2).val = win1_2.index t (2 : Fin 3) * 1024 + 1 * (j 2).val; omega
  have h1 : ((cfg1.win 1).blk t).view.emb (ix2 (j 0) (j 1))
      = ix2 ((((cfg1.win 2).blk t).view.emb j) 0) ((((cfg1.win 2).blk t).view.emb j) 1) := by
    funext a; apply Fin.ext
    match a with
    | ⟨0, _⟩ => show win1_1.index t (0 : Fin 2) * 8 + 1 * (j 0).val = win1_2.index t (0 : Fin 3) * 8 + 1 * (j 0).val; omega
    | ⟨1, _⟩ => show win1_1.index t (1 : Fin 2) * 256 + 1 * (j 1).val = win1_2.index t (1 : Fin 3) * 256 + 1 * (j 1).val; omega
  rw [h0, h1]
  rfl

/-- An index is in point `t`'s output block iff each coordinate is in the block's range on its axis. -/
theorem mem_blk (t : Fin cfg1.N) (i : S64x256x4096.Idx) :
    i ∈ ((cfg1.win 2).blk t).view.set ↔ ∀ a : Fin 3, win1_2.index t a * S8x256x1024.size a ≤ (i a).val
      ∧ (i a).val < win1_2.index t a * S8x256x1024.size a + S8x256x1024.size a := by
  show i ∈ ((View.whole main_v16).slice (win1_2.rect t)).set ↔ _
  rw [View.set_slice_whole, Rect.mem_set_unit]
  exact Iff.rfl

/-- The output blocks tile the array: entry (b, q, l) lies in the block of point `4 (b / 8) + l / 1024`. -/
theorem cover (i : S64x256x4096.Idx) :
    ∃ t : Fin cfg1.N, (cfg1.win 2).flush t = true ∧ i ∈ ((cfg1.win 2).blk t).view.set := by
  have hi0 : (i 0).val < 64 := (i 0).isLt
  have hi1 : (i 1).val < 256 := (i 1).isLt
  have hi2 : (i 2).val < 4096 := (i 2).isLt
  let t : Fin cfg1.N := ⟨4 * ((i 0).val / 8) + (i 2).val / 1024, lt_of_lt_of_eq (by omega) N_1.symm⟩
  obtain ⟨-, -, -, -, -, e5, e6, e7⟩ := idx_facts t
  have ht : t.val = 4 * ((i 0).val / 8) + (i 2).val / 1024 := rfl
  refine ⟨t, flush1_2 t, ?_⟩
  rw [mem_blk]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 256 ≤ (i 1).val ∧ (i 1).val < win1_2.index t (1 : Fin 3) * 256 + 256; omega
  | ⟨2, _⟩ => show win1_2.index t (2 : Fin 3) * 1024 ≤ (i 2).val ∧ (i 2).val < win1_2.index t (2 : Fin 3) * 1024 + 1024; omega

/-- After the region the result array is the scaled array of the region's entry contents. -/
theorem final (c : Dev nD) : (dat1 V c).arrAt 2 cfg1.N = scaled (xarr V c) (garr V c) :=
  (dat1 V c).arrAt_eq_of_cover 2 (scaled (xarr V c) (garr V c)) (fun t _ => flushed_eq V c t) cover

end Cert.KernelIdeal.Scale

end
-- ==== Proof.Gate.lean ====
import proofs.«149825_j5970004542268_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Gate

open Cert.KernelIdeal Cert.KernelIdeal.Gen

variable {F : FTy → Type} [FloatOps F]

/-- The excitation gate as ONE function of the pooled means and the four weight arrays: two dense layers, the first
    cut below at zero, the second squashed by `1 / (1 + exp (-·))`. -/
def gate (y : FVec F S64x256 .f32) (w1 : FVec F S16x256 .f32) (b1 : FVec F S16 .f32) (w2 : FVec F S256x16 .f32)
    (b2 : FVec F S256 .f32) : FVec F S64x256 .f32 :=
  Host.divf (broadcastInDim S64x256 ![] bcast_S_S64x256 (constant S_ .f32 0x3F800000#32))
    (addf (broadcastInDim S64x256 ![] bcast_S_S64x256 (constant S_ .f32 0x3F800000#32))
      (Host.exp (Host.negf (addf
        (Host.dotGeneral dot_S64x16_S256x16_S64x256_1_1_0_0_n_n none
          (maximumf
            (addf (Host.dotGeneral dot_S64x256_S16x256_S64x16_1_1_0_0_n_n none y w1)
              (broadcastInDim S64x16 ![0, 1] bcast_S1x16_S64x16_0_1 (broadcastInDim S1x16 ![1] bcast_S16_S1x16_1 b1)))
            (broadcastInDim S64x16 ![] bcast_S_S64x16 (constant S_ .f32 0x00000000#32)))
          w2)
        (broadcastInDim S64x256 ![0, 1] bcast_S1x256_S64x256_0_1 (broadcastInDim S1x256 ![1] bcast_S256_S1x256_1 b2))))))

/-- The three host stretches between the two kernels leave the gate of what `main_v0` and the weight arrays held
    before them in `main_v15`. -/
theorem chain_eq (W : Valuation τ sig (Elt F)) :
    StableHlo.after hostOps1_2 (StableHlo.after hostOps1_1 (StableHlo.after hostOps1 W)) (Proc.devRef .tc main_v15)
      = gate (W (Proc.devRef .tc main_v0)) (W (Proc.devRef .tc main_arg1)) (W (Proc.devRef .tc main_arg2))
          (W (Proc.devRef .tc main_arg3)) (W (Proc.devRef .tc main_arg4)) := by
  unfold gate
  dsimp only [hostOps1, hostOps1_1, hostOps1_2]
  after_results
  rfl

variable (m : (ℓ : Loc nD τ sig) → Buf (Elt F) ℓ) (ρ : Dev nD → PrngReg)

/-- No window of the first kernel is one of the weight arrays, so they pass it untouched. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

/-- When the second kernel is entered `main_v15` holds the gate of what the first kernel left in `main_v0` and of the
    weight arrays as launched. -/
theorem W4_v15 (c : Dev nD) :
    W4 m ρ c (Proc.devRef .tc main_v15)
      = gate ((dat0 (V0 m ρ) c).arrAt 1 cfg0.N) (m ((c : Thread nD τ).loc main_arg1)) (m ((c : Thread nD τ).loc main_arg2))
          (m ((c : Thread nD τ).loc main_arg3)) (m ((c : Thread nD τ).loc main_arg4)) := by
  rw [← W1_arg1 m ρ c, ← W1_arg2 m ρ c, ← W1_arg3 m ρ c, ← W1_arg4 m ρ c, ← W1_arr m ρ c 1]
  exact chain_eq (W1 m ρ c)

/-- The data array is as launched when the second kernel is entered: the last boundary's contents at it are the
    launch contents, and the second kernel only reads it. -/
theorem W4_arg0 (c : Dev nD) : W4 m ρ c (Proc.devRef .tc main_arg0) = m ((c : Thread nD τ).loc main_arg0) :=
  ((W5_arr m ρ c 0).trans (((dat1 (V4 m ρ) c).arrAt_in 0 rfl _).trans (A_eq1 (V4 m ρ) c 0))).symm.trans
    (W5_main_arg0 m ρ c)

end Cert.KernelIdeal.Gate

end
-- ==== Proof.KernelValue.lean ====
import proofs.«149825_j5970004542268_1_alg».proof.Proof.Mean
import proofs.«149825_j5970004542268_1_alg».proof.Proof.Scale
import proofs.«149825_j5970004542268_1_alg».proof.Proof.Gate
import proofs.«149825_j5970004542268_1_alg».proof.Proof.RunNamed

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (ρ : Dev nD → PrngReg)

/-- The whole program as one function of its five arguments: pool, gate, scale. -/
def result (x : S64x256x4096.Idx → EReal) (w1 : FVec Ideal S16x256 .f32) (b1 : FVec Ideal S16 .f32)
    (w2 : FVec Ideal S256x16 .f32) (b2 : FVec Ideal S256 .f32) : S64x256x4096.Idx → EReal :=
  Scale.scaled x (Gate.gate (Mean.pooled x) w1 b1 w2 b2)

/-- What the result array holds at the last segment boundary: the second kernel's write-backs of the scaled array, over
    the data as launched and the gate the host stretches computed from the first kernel's pooled array. -/
theorem W5_result (c : Dev nD) :
    W5 m ρ c (Proc.devRef .tc main_v16)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have h0 : Mean.xarr (V0 m ρ) c = m ((c : Thread nD τ).loc main_arg0) := rfl
  have hp : (dat0 (V0 m ρ) c).arrAt 1 cfg0.N = Mean.pooled (m ((c : Thread nD τ).loc main_arg0)) := by
    rw [← h0]
    exact Mean.final (V0 m ρ) c
  have hx : Scale.xarr (V4 m ρ) c = m ((c : Thread nD τ).loc main_arg0) := Gate.W4_arg0 m ρ c
  have hg : Scale.garr (V4 m ρ) c = Gate.gate (F := Ideal) (Mean.pooled (m ((c : Thread nD τ).loc main_arg0)))
      (m ((c : Thread nD τ).loc main_arg1)) (m ((c : Thread nD τ).loc main_arg2))
      (m ((c : Thread nD τ).loc main_arg3)) (m ((c : Thread nD τ).loc main_arg4)) := by
    rw [← hp]
    exact Gate.W4_v15 m ρ c
  have hf : (dat1 (V4 m ρ) c).arrAt 2 cfg1.N = Scale.scaled (Scale.xarr (V4 m ρ) c) (Scale.garr (V4 m ρ) c) :=
    Scale.final (V4 m ρ) c
  rw [hx, hg] at hf
  exact (W5_arr m ρ c 2).trans hf

/-- The run, read: the result array ends at the program's function of the arguments as launched, the arguments
    unchanged. -/
theorem run : θ_run defs (onTc (τ := τ) (main (F := Ideal))) ⟨m, fun _ => 0, ρ⟩ (fun r => ∀ c : Dev nD,
      r.2.mem ((c.tc : Thread nD τ).loc main_v16)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (W5_result m ρ c), (h c).2⟩) (Named.run m ρ)

end Cert.KernelIdeal.Value

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.MeanLaw.lean ====
import Idealize.ShloMosaic.PureOps.Ideal.Laws
import proofs.«149825_j5970004542268_1_alg».proof.Proof.LibRunSums

noncomputable section

open scoped BigOperators

namespace Cert.MeanLaw

open Idealize.ShloMosaic

/-- The kernel's constant `2.44140625e-4` is exactly `1/4096`, a power of two. -/
theorem ofBits_inv4096 : Ideal.ofBits .f32 0x39800000#32 = ((1 / 4096 : ℝ) : EReal) := by
  simp [Ideal.ofBits, Ideal.ieee, -EReal.coe_mul]; norm_num

/-- The reference's divisor `4096.0` denotes the real `4096`. -/
theorem ofBits_4096 : Ideal.ofBits .f32 0x45800000#32 = ((4096 : ℝ) : EReal) := by
  simp [Ideal.ofBits, Ideal.ieee, -EReal.coe_mul]; norm_num

/-- Four runs of 1024 terms added in turn to zero are the sum of all 4096 terms: only commutativity and associativity of
    the extended reals' addition are used, so infinite terms do no harm. -/
theorem four_runs (g : ℕ → EReal) :
    (((((0 : EReal) + ∑ r : Fin 1024, g (1024 * 0 + r.val)) + ∑ r : Fin 1024, g (1024 * 1 + r.val))
      + ∑ r : Fin 1024, g (1024 * 2 + r.val)) + ∑ r : Fin 1024, g (1024 * 3 + r.val)) = ∑ k : Fin 4096, g k.val := by
  rw [zero_add, Cert.RunSums.first_run 1024 g]
  rw [show (1024 * (0 + 1) : ℕ) = 1024 * 1 from rfl, Cert.RunSums.add_next_run 1024 g 1]
  rw [show (1024 * (1 + 1) : ℕ) = 1024 * 2 from rfl, Cert.RunSums.add_next_run 1024 g 2]
  rw [show (1024 * (2 + 1) : ℕ) = 1024 * 3 from rfl, Cert.RunSums.add_next_run 1024 g 3]
  exact Cert.RunSums.whole_column 4096 g

/-- The pooled value is the mean: the running total times `1/4096` is the whole column's sum from zero divided by
    `4096`. The quotient by a nonzero real IS the product with its reciprocal on every extended real. -/
theorem mean_law (g : ℕ → EReal) :
    ((((Ideal.ofBits .f32 0x00000000#32 + ∑ r : Fin 1024, g (1024 * 0 + r.val)) + ∑ r : Fin 1024, g (1024 * 1 + r.val))
      + ∑ r : Fin 1024, g (1024 * 2 + r.val)) + ∑ r : Fin 1024, g (1024 * 3 + r.val)) * Ideal.ofBits .f32 0x39800000#32
    = Ideal.div (Ideal.ofBits .f32 0x00000000#32 + ∑ k : Fin 4096, g k.val) (Ideal.ofBits .f32 0x45800000#32) := by
  rw [Ideal.ofBits_zero_f32, ofBits_inv4096, ofBits_4096, Ideal.div_coe (by norm_num : (4096 : ℝ) ≠ 0), four_runs, zero_add]

end Cert.MeanLaw

end
-- ==== Proof.Bridge.lean ====
import proofs.«149825_j5970004542268_1_alg».proof.Proof.Gen.ReferenceIdeal.Read
import proofs.«149825_j5970004542268_1_alg».proof.Proof.KernelValue
import proofs.«149825_j5970004542268_1_alg».proof.Proof.MeanLaw

set_option maxRecDepth 16384

noncomputable section

open Idealize.ShloMosaic Idealize.ShloMosaic.TcCoe Idealize.SL.Sem
open scoped BigOperators

namespace Cert.ReferenceIdeal.Bridge

open Cert.ReferenceIdeal Cert.ReferenceIdeal.Gen Cert.ReferenceIdeal.Read ValueIdx

/-- The kernel's pooled array is the reference's mean: at each batch row and channel the four runs of 1024 terms added
    in turn are the whole column's sum, and the product with `1/4096` is the quotient by `4096`. -/
theorem pooled_eq (x : (⟨S64x256x4096, .f32⟩ : BufTy).Contents (Elt Ideal)) :
    Cert.KernelIdeal.Mean.pooled x = val_main_v2 (F := Ideal) x := by
  funext i
  rw [val_main_v2_apply, val_main_v0_apply, val_main_v1_apply, val_main_cst_0_apply, val_main_cst_apply]
  unfold Cert.KernelIdeal.Mean.pooled
  rw [Cert.MeanLaw.mean_law (Cert.KernelIdeal.Mean.col x i)]
  refine congrArg (fun s => Ideal.div (Ideal.ofBits .f32 0x00000000#32 + s) (Ideal.ofBits .f32 0x45800000#32)) ?_
  refine Finset.sum_congr rfl fun k _ => ?_
  unfold Cert.KernelIdeal.Mean.col
  rw [dif_pos k.isLt]
  exact congrArg x (funext fun a => Fin.ext (by match a with | ⟨0, _⟩ => rfl | ⟨1, _⟩ => rfl | ⟨2, _⟩ => rfl))

/-- The reference's gate is the kernel program's: the same two dense layers, cut and squashing, applied to the same
    mean. -/
theorem gate_eq (x : (⟨S64x256x4096, .f32⟩ : BufTy).Contents (Elt Ideal)) (w1 : (⟨S16x256, .f32⟩ : BufTy).Contents (Elt Ideal))
    (b1 : (⟨S16, .f32⟩ : BufTy).Contents (Elt Ideal)) (w2 : (⟨S256x16, .f32⟩ : BufTy).Contents (Elt Ideal))
    (b2 : (⟨S256, .f32⟩ : BufTy).Contents (Elt Ideal)) :
    val_main_v17 (F := Ideal) x w1 b1 w2 b2 = Cert.KernelIdeal.Gate.gate (F := Ideal) (Cert.KernelIdeal.Mean.pooled x) w1 b1 w2 b2 := by
  rw [pooled_eq]
  rfl

/-- The reference's result is the kernel program's function of the five arguments: its two broadcasts put the gate of
    (batch row, channel) beside every entry along the length axis. -/
theorem result_eq (x : (⟨S64x256x4096, .f32⟩ : BufTy).Contents (Elt Ideal)) (w1 : (⟨S16x256, .f32⟩ : BufTy).Contents (Elt Ideal))
    (b1 : (⟨S16, .f32⟩ : BufTy).Contents (Elt Ideal)) (w2 : (⟨S256x16, .f32⟩ : BufTy).Contents (Elt Ideal))
    (b2 : (⟨S256, .f32⟩ : BufTy).Contents (Elt Ideal)) :
    val_main_v20 (F := Ideal) x w1 b1 w2 b2 = Cert.KernelIdeal.Value.result x w1 b1 w2 b2 := by
  funext i
  rw [val_main_v20_apply, val_main_v19_apply, val_main_v18_apply, gate_eq]
  show x i * _ = x i * _
  exact congrArg (fun j => x i * Cert.KernelIdeal.Gate.gate (F := Ideal) (Cert.KernelIdeal.Mean.pooled x) w1 b1 w2 b2 j)
    (funext fun a => Fin.ext (by match a with | ⟨0, _⟩ => rfl | ⟨1, _⟩ => rfl))

end Cert.ReferenceIdeal.Bridge

end
-- ==== Proof.lean ====
/-
  A squeeze-and-excite block over f32[64, 256, 4096]: every (batch row, channel) column is averaged along the length
  axis, the averages go through two small dense layers (the first cut below at zero, the second squashed by
  `1 / (1 + exp (-·))`) to a gate per (batch row, channel), and every entry of the input is multiplied by its column's gate.

  The kernel program does the averaging and the scaling in two pipelined kernels over blocks of 8 batch rows by 1024
  positions. The first walks each batch block's four length blocks in turn: it stores zeros at the first, adds each
  block's sums along the length axis to the staged total, and at the fourth multiplies the total by `2^-12` before the
  block is written back. The dense layers run between the kernels on the host, the same operations the reference
  applies. The second kernel multiplies each data block by the gate block of its batch rows, repeated along the length
  axis.

  Over the extended reals the two programs are one function. Adding a column in four runs of 1024 is adding it whole
  (only commutativity and associativity of the sum: Proof/MeanLaw.lean, over Proof/LibRunSums.lean); `2^-12` is exactly
  `1/4096`, and the quotient by a nonzero real is the product with its reciprocal at every extended real, so no
  finiteness of the inputs is used. The gate is carried as one function on both sides (Proof/Gate.lean) and never opened.
  Proof/Mean.lean and Proof/Scale.lean read each kernel's result array from its blocks, Proof/RunNamed.lean keeps the
  result array in the run's post, Proof/KernelValue.lean composes them, Proof/Bridge.lean meets the reference.
-/
import proofs.«149825_j5970004542268_1_alg».proof.Defs
import proofs.«149825_j5970004542268_1_alg».proof.Proof.Gen.Kernel
import proofs.«149825_j5970004542268_1_alg».proof.Proof.Gen.Kernel.Frame
import proofs.«149825_j5970004542268_1_alg».proof.Proof.Gen.KernelIdeal
import proofs.«149825_j5970004542268_1_alg».proof.Proof.Gen.KernelIdeal.Frame
import proofs.«149825_j5970004542268_1_alg».proof.Proof.Gen.ReferenceIdeal
import proofs.«149825_j5970004542268_1_alg».proof.Proof.Gen.ReferenceIdeal.Run
import proofs.«149825_j5970004542268_1_alg».proof.Proof.Gen.ReferenceIdeal.Read
import proofs.«149825_j5970004542268_1_alg».proof.Proof.Gen.Pre_finite_inputs
import proofs.«149825_j5970004542268_1_alg».proof.Proof.KernelValue
import proofs.«149825_j5970004542268_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the word-level program and its reading over the extended reals. -/
theorem preserves : Cert.preserves_Kernel_KernelIdeal := trivial

/-- From memories that agree on the five arguments both programs end with the same result array: the kernel program's
    at its function of the arguments, the reference's at its composed term, which is that function. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.ReferenceIdeal.Bridge.result_eq _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
